-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S65536x256 : Shape := ⟨2, ![65536, 256]⟩
abbrev S16x128 : Shape := ⟨2, ![16, 128]⟩
abbrev S4096x256 : Shape := ⟨2, ![4096, 256]⟩
abbrev S8x128 : Shape := ⟨2, ![8, 128]⟩
abbrev S1x1 : Shape := ⟨2, ![1, 1]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_10 : BitVec 32 := 0#32
  let v31 : BitVec 1 := Scalar.cmpi .ne v30 c0_i32_10
  v31

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  iota_S4096x1_d0_w32 : S4096x1.Iotas .tc 32 [0]
  reduces_S4096x1_S1 : S4096x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x256 : Shape := ⟨2, ![65536, 256]⟩
abbrev S_ : Shape := ⟨0, ![]⟩
abbrev S65536 : Shape := ⟨1, ![65536]⟩
abbrev S1 : Shape := ⟨1, ![1]⟩

abbrev nBuf : Space → Nat
  | .hbm => 19
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S_, .f32⟩
  | .hbm, ⟨6, _⟩ => ⟨S65536, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S65536, .f32⟩
  | .hbm, ⟨11, _⟩ => ⟨S_, .f32⟩
  | .hbm, ⟨12, _⟩ => ⟨S65536, .f32⟩
  | .hbm, ⟨13, _⟩ => ⟨S65536, .f32⟩
  | .hbm, ⟨14, _⟩ => ⟨S65536, .f32⟩
  | .hbm, ⟨15, _⟩ => ⟨S65536, .f32⟩
  | .hbm, ⟨16, _⟩ => ⟨S65536, .f32⟩
  | .hbm, ⟨17, _⟩ => ⟨S_, .f32⟩
  | .hbm, ⟨18, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S_S65536 : S_.BroadcastsInDim S65536 (![] : Fin 0 → Fin S65536.rank)
  bcast_S_S1 : S_.BroadcastsInDim S1 (![] : Fin 0 → Fin S1.rank)
  reducesTo_S65536_S_d0 : S65536.ReducesTo [0] S_
  scatter_S65536_S1_S__n_0_0_0_wf : ScatterDims.WF S65536 S1 S_ [] [0] [0] 0

variable [Facts₀]

def scatter_S65536_S1_S__n_0_0_0 : ScatterDims S65536 S1 S_ where
  updateWindowDims := []
  insertedWindowDims := [0]
  scatterDimsToOperandDims := [0]
  indexVectorDim := 0
  wf := scatter_S65536_S1_S__n_0_0_0_wf

class Facts : Prop extends Facts₀ where

variable [Facts]
-- ==== Proof.Pieces.lean ====
/-
  What one grid point leaves behind, read off the pieces the three control cases' runs found.

  The kernel keeps a [1,1] accumulator across grid points.  At the first point of a half it stores zero into it, loads
  that back and stores zero-plus-this-tile's-sum (two stores, the later one covering); at the other points it loads
  what the point before left and stores that plus this tile's sum (one store).  At the last point of a half it also
  loads the accumulator once more and stores its broadcast into the [8,128] output block.  Every store is through the
  whole-buffer rectangle at zero offsets, so the contents after the point are the last store's value, and a load after
  a store reads that store's value.
-/
import proofs.«119670_j86526411145838_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A point in the middle of a half: the accumulator, found at `xs`, is left at `xs` plus the tile's sum
    (the second payload of the tile's two blocks and `xs`). -/
theorem acc_middle (c : Dev nD) (i : grid0.Coords) (a2 : Memref sig .tc .vmem S4096x256 .f32) (h2 : a2.IsWhole)
    (a3 : Memref sig .tc .vmem S4096x256 .f32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 x1 : Vec F S4096x256 .f32) (xs : Vec F S1x1 .f32) :
    sout0_B_0 c i a2 h2 a3 h3 a4 h4 a5 h5 hc0 hc1 x0 x1 xs = k0_pay2 i x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  simp only [View.readAt_eq_ld, h2.read_unread, h3.read_unread, h5.read_unread, View.ld_unit_zero (S := S4096x256) hz,
    View.ld_unit_zero (S := S1x1) hz]

/-- The last point of a half leaves the accumulator as a middle point does … -/
theorem acc_last (c : Dev nD) (i : grid0.Coords) (a2 : Memref sig .tc .vmem S4096x256 .f32) (h2 : a2.IsWhole)
    (a3 : Memref sig .tc .vmem S4096x256 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S4096x256 .f32) (xs : Vec F S1x1 .f32) :
    sout0_C_0 c i a2 h2 a3 h3 a4 h4 a5 h5 hc0 hc1 x0 x1 xs = k0_pay2 i x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S4096x256) hz,
    View.ld_unit_zero (S := S1x1) hz]

/-- … and the output block at the broadcast (the third payload) of that new accumulator value. -/
theorem out_last (c : Dev nD) (i : grid0.Coords) (a2 : Memref sig .tc .vmem S4096x256 .f32) (h2 : a2.IsWhole)
    (a3 : Memref sig .tc .vmem S4096x256 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S4096x256 .f32) (xs : Vec F S1x1 .f32) :
    out0_C_2 c i a2 h2 a3 h3 a4 h4 a5 h5 hc0 hc1 x0 x1 xs = k0_pay3 (k0_pay2 i x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S4096x256) hz,
    View.ld_unit_zero (S := S1x1) hz, View.readCov_unit_zero (S := S1x1) _ hz]

/-- The first point of a half: the accumulator is reset (the first payload, a zero splat), read back, and left at
    the reset value plus the tile's sum. -/
theorem acc_first (c : Dev nD) (i : grid0.Coords) (a2 : Memref sig .tc .vmem S4096x256 .f32) (h2 : a2.IsWhole)
    (a3 : Memref sig .tc .vmem S4096x256 .f32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 x1 : Vec F S4096x256 .f32) :
    sout0_A_0 c i a2 h2 a3 h3 a4 h4 a5 h5 hc0 hc1 x0 x1 = k0_pay2 i x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz]
  simp only [View.readAt_eq_ld, h2.read_unread, h3.read_unread, View.ld_unit_zero (S := S4096x256) hz,
    View.readCov_unit_zero (S := S1x1) _ hz]

end Cert.KernelIdeal.Pieces

end
-- ==== Proof.RowSum.lean ====
/-
  The arithmetic both programs compute, with no program in sight.

  For two [65536, 256] arrays the row inner product is d_j = Σ_k a(j,k)·b(j,k).  Every row contributes
  65533·d_j + exp d_j, and the last row (j = 65535) one more d_j.  One side spells the last row's weight as
  (65533·d + exp d) + d, the other as (65535 − 1)·d + exp d; on the other rows the weight is 65533 against 65534 − 1.
  The two spellings agree on every extended real (at ±∞ both sides collapse to the same infinity), so no
  finiteness of the inputs is needed.  The remaining difference is the order of summation: one total sum over the
  65536 rows against two halves, each accumulated tile by tile (8 tiles of 4096 rows), which is a regrouping of a
  finite sum in a commutative monoid.
-/
import Idealize.ShloMosaic.PureOps.Ideal.Laws
import Idealize.ShloMosaic.Lib.ValueIdx
import Mathlib.Algebra.BigOperators.Fin
import Mathlib.Logic.Equiv.Fin.Basic

noncomputable section

namespace Cert.RowSum

open Idealize.ShloMosaic Idealize.ShloMosaic.ValueIdx

/-! ## The four float words that are evaluated -/

theorem ofBits_65533 : Ideal.ofBits .f32 0x477FFD00#32 = ((65533 : ℝ) : EReal) := by
  simp [Ideal.ofBits, Ideal.ieee, -EReal.coe_mul]; norm_num
theorem ofBits_65534 : Ideal.ofBits .f32 0x477FFE00#32 = ((65534 : ℝ) : EReal) := by
  simp [Ideal.ofBits, Ideal.ieee, -EReal.coe_mul]; norm_num
theorem ofBits_65535 : Ideal.ofBits .f32 0x477FFF00#32 = ((65535 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-! ## One row's contribution -/

/-- The contribution of a row that is not the last: 65533·d + exp d. -/
def term (d : EReal) : EReal := ((65533 : ℝ) : EReal) * d + Ideal.exp d

/-- The contribution of row `n`: the last row adds its inner product once more. -/
def rowTerm (n : ℕ) (d : EReal) : EReal := if n = 65535 then term d + d else term d

/-- The weight minus one, as the other side spells it: 65534 − 1 on an ordinary row, 65535 − 1 on the last. -/
def weight (n : ℕ) : EReal := (if n = 65535 then ((65535 : ℝ) : EReal) else ((65534 : ℝ) : EReal)) - ((1 : ℝ) : EReal)

/-- (65533·d + e) + d = 65534·d + e for every extended real d and e: for a real d by distributivity in ℝ; at
    d = ⊥ both sides are ⊥; at d = ⊤ both are ⊤ unless e = ⊥, when both are ⊥. -/
theorem last_row_law (d e : EReal) :
    (((65533 : ℝ) : EReal) * d + e) + d = ((65534 : ℝ) : EReal) * d + e := by
  induction d using EReal.rec with
  | bot =>
    rw [EReal.coe_mul_bot_of_pos (by norm_num), EReal.coe_mul_bot_of_pos (by norm_num), EReal.bot_add, EReal.bot_add]
  | coe r =>
    rw [add_right_comm, ← EReal.coe_mul, ← EReal.coe_mul, ← EReal.coe_add]
    congr 2
    ring
  | top =>
    rw [EReal.coe_mul_top_of_pos (by norm_num), EReal.coe_mul_top_of_pos (by norm_num)]
    by_cases he : e = ⊥
    · subst he; rw [EReal.add_bot, EReal.bot_add]
    · rw [EReal.top_add_of_ne_bot he, EReal.top_add_top]

/-- The two spellings of a row's contribution agree. -/
theorem rowTerm_eq (n : ℕ) (d : EReal) : rowTerm n d = weight n * d + Ideal.exp d := by
  unfold rowTerm weight term
  by_cases h : n = 65535
  · rw [if_pos h, if_pos h, last_row_law, ← EReal.coe_sub]; norm_num
  · rw [if_neg h, if_neg h, ← EReal.coe_sub]; norm_num

/-- The inner product of row `n` of two [65536, 256] arrays. -/
def dot (x0 x1 : (⟨2, ![65536, 256]⟩ : Shape).Idx → EReal) (n : Fin 65536) : EReal :=
  ∑ k : Fin 256, x0 (ix2 n k) * x1 (ix2 n k)

/-- The whole result: every row's contribution, summed. -/
def total (x0 x1 : (⟨2, ![65536, 256]⟩ : Shape).Idx → EReal) : EReal := ∑ n : Fin 65536, rowTerm n.val (dot x0 x1 n)

/-! ## The order of summation -/

/-- The value accumulated after grid point `n` (points 0–7 are one half, 8–15 the other; the accumulator restarts
    at the first point of a half): the tile sums of its half up to `n`. -/
def acc (T : ℕ → EReal) (n : ℕ) : EReal := ∑ s ∈ Finset.range (n % 8 + 1), T (n - n % 8 + s)

theorem acc_first (T : ℕ → EReal) (n : ℕ) (h : n % 8 = 0) : acc T n = 0 + T n := by
  unfold acc; rw [h, zero_add]; simp

theorem acc_next (T : ℕ → EReal) (n : ℕ) (h : ¬(n + 1) % 8 = 0) : acc T (n + 1) = acc T n + T (n + 1) := by
  unfold acc
  have h1 : (n + 1) % 8 = n % 8 + 1 := by omega
  have h2 : n + 1 - (n % 8 + 1) = n - n % 8 := by omega
  rw [h1, h2, Finset.sum_range_succ]
  congr 2
  omega

theorem acc_7 (T : ℕ → EReal) : acc T 7 = ∑ s ∈ Finset.range 8, T s := by
  unfold acc; exact Finset.sum_congr rfl fun s _ => by congr 1; omega

theorem acc_15 (T : ℕ → EReal) : acc T 15 = ∑ s ∈ Finset.range 8, T (8 + s) := by
  unfold acc; exact Finset.sum_congr rfl fun s _ => by congr 1

/-- Sixteen tiles of 4096 consecutive rows are the 65536 rows. -/
theorem sum_tiles (g : ℕ → EReal) :
    (∑ s ∈ Finset.range 8, ∑ r : Fin 4096, g (4096 * s + r.val))
      + (∑ s ∈ Finset.range 8, ∑ r : Fin 4096, g (4096 * (8 + s) + r.val)) = ∑ j : Fin 65536, g j.val := by
  rw [← Finset.sum_range_add (fun s => ∑ r : Fin 4096, g (4096 * s + r.val)) 8 8]
  rw [show (8 + 8 : ℕ) = 16 from rfl, Finset.sum_range, ← Fintype.sum_prod_type']
  rw [← Equiv.sum_comp (finCongr (show 16 * 4096 = 65536 from rfl)) (fun j : Fin 65536 => g j.val)]
  rw [← Equiv.sum_comp finProdFinEquiv]
  refine Finset.sum_congr rfl fun p _ => ?_
  congr 1
  simp [finProdFinEquiv]
  omega

end Cert.RowSum

end
-- ==== Proof.Payload.lean ====
/-
  The three stored values of the kernel body, read at an index over the extended reals.

  The body's tile is 4096 rows of both arrays.  Row r of the tile has inner product d_r = Σ_k x0(r,k)·x1(r,k); its
  global row number is 4096·(8·i₀ + i₁) + r at grid point (i₀, i₁), computed in 32-bit words that never wrap (the
  largest is 65535).  The row's contribution is 65533·d_r + exp d_r, plus d_r once more exactly when the global row
  number is 65535.  The second stored value is the accumulator plus the sum of the tile's 4096 contributions; the
  first is the zero that restarts the accumulator; the third repeats the accumulator's one entry over an [8,128] block.
-/
import proofs.«119670_j86526411145838_2_alg».proof.Proof.Gen.KernelIdeal.Skeleton
import proofs.«119670_j86526411145838_2_alg».proof.Proof.RowSum
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.RowSum

/-- The global row number of row `r` of the tile at grid point `i`. -/
def grow (i : grid0.Coords) (r : Fin 4096) : ℕ := 4096 * (8 * (i 0).val + (i 1).val) + r.val

theorem grow_lt (i : grid0.Coords) (r : Fin 4096) : grow i r < 65536 := by
  have h0 : (i 0).val < 2 := (i 0).isLt
  have h1 : (i 1).val < 8 := (i 1).isLt
  have hr := r.isLt
  unfold grow; omega

/-- The word the kernel compares with 65535 is the global row number: none of its 32-bit sums and products wraps. -/
theorem word_eq (i : grid0.Coords) (r : Fin 4096) :
    IntOp.addi (BitVec.ofNat 32 r.val)
        (Scalar.muli (Scalar.addi (Scalar.muli (BitVec.ofNat 32 (i 0).val) 8#32) (BitVec.ofNat 32 (i 1).val)) 4096#32)
      = BitVec.ofNat 32 (grow i r) := by
  unfold grow IntOp.addi Scalar.muli Scalar.addi IntOp.muli IntOp.addi
  apply BitVec.eq_of_toNat_eq
  have h0 : (i 0).val < 2 := (i 0).isLt
  have h1 : (i 1).val < 8 := (i 1).isLt
  have hr := r.isLt
  simp only [BitVec.toNat_add, BitVec.toNat_mul, BitVec.toNat_ofNat]
  omega

/-- The comparison picks the last row of the whole array and no other. -/
theorem pick (i : grid0.Coords) (r : Fin 4096) (a b : EReal) :
    Scalar.select (IntOp.cmpi .eq (IntOp.addi (BitVec.ofNat 32 r.val)
        (Scalar.muli (Scalar.addi (Scalar.muli (BitVec.ofNat 32 (i 0).val) 8#32) (BitVec.ofNat 32 (i 1).val)) 4096#32)) 65535#32) a b
      = if grow i r = 65535 then a else b := by
  rw [word_eq]
  have hlt := grow_lt i r
  by_cases h : grow i r = 65535
  · rw [if_pos h, h]; exact select_one a b
  · rw [if_neg h]
    have hne : ¬BitVec.ofNat 32 (grow i r) = 65535#32 := fun e => h (by
      have := congrArg BitVec.toNat e
      simp only [BitVec.toNat_ofNat] at this
      omega)
    have : IntOp.cmpi .eq (BitVec.ofNat 32 (grow i r)) 65535#32 = 0#1 := by
      unfold IntOp.cmpi
      show BitVec.ofBool (BitVec.ofNat 32 (grow i r) == 65535#32) = 0#1
      rw [beq_eq_false_iff_ne.mpr hne]; rfl
    rw [this]; exact select_zero a b

/-- The tile's row inner products as a [4096,1] column: entry r is Σ_k x0(r,k)·x1(r,k). -/
def col (x0 x1 : Vec Ideal S4096x256 .f32) : FVec Ideal S4096x1 .f32 :=
  shapeCast S4096x1 (multiReduction .add [1] S4096 (mulf x0 x1) 0x00000000#32 reduces_S4096x256_S4096 (.inl rfl) rfl)
    shapeCasts_S4096_S4096x1

theorem col_apply (x0 x1 : Vec Ideal S4096x256 .f32) (r : Fin 4096) :
    col x0 x1 (ix2 r 0) = ∑ k : Fin 256, x0 (ix2 r k) * x1 (ix2 r k) := by
  unfold col
  refine (shapeCast_apply _ shapeCasts_S4096_S4096x1 (ix2 r 0) (ix1 r) ?_).trans ?_
  · rw [Shape.rowMajor_val_one, Shape.rowMajor_val_two]; simp
  refine (Ideal.multiReduction_add_single (mulf x0 x1) 0x00000000#32 reduces_S4096x256_S4096 (.inl rfl) rfl (ix1 r)).trans ?_
  refine Finset.sum_congr rfl fun k _ => ?_
  show x0 _ * x1 _ = _
  have e : reduces_S4096x256_S4096.lift (ix1 r) k = ix2 r k :=
    funext fun a => Fin.ext (by match a with | ⟨0, _⟩ => rfl | ⟨1, _⟩ => rfl)
  rw [e]; rfl

/-- The tile's 4096 contributions as a [4096,1] column, from the column of inner products. -/
def contrib (i : grid0.Coords) (v7 : FVec Ideal S4096x1 .f32) : FVec Ideal S4096x1 .f32 :=
  select
    (cmpi .eq (addi (iota .tc S4096x1 32 [0] iota_S4096x1_d0_w32)
        (broadcast S4096x1 (Scalar.muli (Scalar.addi (Scalar.muli (BitVec.ofNat 32 (i 0).val) 8#32) (BitVec.ofNat 32 (i 1).val)) 4096#32)))
      (broadcast S4096x1 65535#32))
    (addf (addf (mulf (broadcast S4096x1 (Scalar.ofBits .f32 0x477FFD00#32)) v7) (exp v7)) v7)
    (addf (mulf (broadcast S4096x1 (Scalar.ofBits .f32 0x477FFD00#32)) v7) (exp v7))

theorem contrib_apply (i : grid0.Coords) (v7 : FVec Ideal S4096x1 .f32) (r : Fin 4096) :
    contrib i v7 (ix2 r 0) = rowTerm (grow i r) (v7 (ix2 r 0)) := by
  unfold contrib rowTerm term
  rw [select_apply]
  show Scalar.select (IntOp.cmpi .eq (IntOp.addi (iota .tc S4096x1 32 [0] iota_S4096x1_d0_w32 (ix2 r 0)) _) 65535#32) _ _ = _
  rw [iota_single_apply]
  show Scalar.select (IntOp.cmpi .eq (IntOp.addi (BitVec.ofNat 32 r.val) _) 65535#32)
    ((Ideal.ofBits .f32 0x477FFD00#32 * v7 (ix2 r 0) + Ideal.exp (v7 (ix2 r 0))) + v7 (ix2 r 0))
    (Ideal.ofBits .f32 0x477FFD00#32 * v7 (ix2 r 0) + Ideal.exp (v7 (ix2 r 0))) = _
  rw [broadcast_apply, pick, ofBits_65533]

/-- The second stored value: the accumulator plus the tile's 4096 contributions. -/
theorem pay2_apply (i : grid0.Coords) (x0 x1 : Vec Ideal S4096x256 .f32) (acc : Vec Ideal S1x1 .f32) (y : S1x1.Idx) :
    k0_pay2 (F := Ideal) i x0 x1 acc y
      = acc y + ∑ r : Fin 4096, rowTerm (grow i r) (∑ k : Fin 256, x0 (ix2 r k) * x1 (ix2 r k)) := by
  have e : k0_pay2 (F := Ideal) i x0 x1 acc
      = shapeCast S1x1 (addf acc (shapeCast S1x1
          (multiReduction .add [0] S1 (contrib i (col x0 x1)) 0x00000000#32 reduces_S4096x1_S1 (.inl rfl) rfl)
          shapeCasts_S1_S1x1)) shapeCasts_S1x1_S1x1 := rfl
  rw [e, shapeCast_self, addf_apply]
  congr 1
  refine (shapeCast_apply _ shapeCasts_S1_S1x1 y (ix1 0) ?_).trans ?_
  · rw [Shape.rowMajor_val_one, Shape.rowMajor_val_two]
    have h0 : (y 0).val < 1 := (y 0).isLt
    have h1 : (y 1).val < 1 := (y 1).isLt
    show (0 : ℕ) = _
    simp only [Nat.lt_one_iff] at h0 h1
    rw [h0, h1]; simp
  refine (Ideal.multiReduction_add_single (contrib i (col x0 x1)) 0x00000000#32 reduces_S4096x1_S1 (.inl rfl) rfl (ix1 0)).trans ?_
  show (∑ r : Fin 4096, contrib i (col x0 x1) (reduces_S4096x1_S1.lift (ix1 0) r)) = _
  refine Finset.sum_congr rfl fun r _ => ?_
  have e2 : reduces_S4096x1_S1.lift (ix1 0) r = ix2 r 0 :=
    funext fun a => Fin.ext (by match a with | ⟨0, _⟩ => rfl | ⟨1, _⟩ => rfl)
  rw [e2]
  exact (contrib_apply i (col x0 x1) r).trans (by rw [col_apply])

/-- The first stored value is zero. -/
theorem pay1_apply (y : S1x1.Idx) : k0_pay1 (F := Ideal) y = 0 := by
  unfold k0_pay1
  rw [shapeCast_self]
  exact Ideal.ofBits_zero_f32

/-- The third stored value repeats the accumulator's one entry. -/
theorem pay3_apply (v : Vec Ideal S1x1 .f32) (y : S8x128.Idx) : k0_pay3 (F := Ideal) v y = v (ix2 0 0) := by
  unfold k0_pay3
  rw [shapeCast_self]
  exact broadcastTo_apply v broadcasts_S1x1_S8x128 y (ix2 0 0)
    (fun a => by match a with | ⟨0, _⟩ => rfl | ⟨1, _⟩ => rfl)

end Cert.KernelIdeal.Payload

end
-- ==== Proof.HalfSums.lean ====
/-
  What the kernel's region leaves in its [16,128] result array, and what the two host reads of it add up to.

  Grid point t (0 ≤ t < 16) stages rows 4096·t … 4096·t + 4095 of both arrays.  The accumulator after point t holds the
  sum of the tile sums of t's half (points 0–7 or 8–15) up to t: it restarts at the first point of a half and
  otherwise adds this tile's sum to what the point before left — an induction on the point.  The last point of a
  half (7 and 15) writes the accumulator, repeated over an [8,128] block, to rows 8·(t/8) … 8·(t/8)+7 of the result
  array; those two blocks tile it.  The host then reads entries (0,0) and (8,0) and adds them: the two halves' sums.
-/
import proofs.«119670_j86526411145838_2_alg».proof.Proof.Gen.KernelIdeal.Frame
import proofs.«119670_j86526411145838_2_alg».proof.Proof.Pieces
import proofs.«119670_j86526411145838_2_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HalfSums

open Cert.KernelIdeal Cert.KernelIdeal.Gen Cert.RowSum Cert.KernelIdeal.Payload

variable (m : (ℓ : Loc nD τ sig) → Buf (Elt Ideal) ℓ) (ρ : Dev nD → PrngReg)

/-- The two argument arrays as the region finds them, and their blocks at a grid point, at their literal types. -/
abbrev arrA (c : Dev nD) : Vec Ideal S65536x256 .f32 := V m c main_arg0
abbrev arrB (c : Dev nD) : Vec Ideal S65536x256 .f32 := V m c main_arg1
abbrev blkA (c : Dev nD) (t : Fin cfg0.N) : Vec Ideal S4096x256 .f32 := iblk m c 0 t
abbrev blkB (c : Dev nD) (t : Fin cfg0.N) : Vec Ideal S4096x256 .f32 := iblk m c 1 t

/-- The printed index maps and grid coordinates, decided over the sixteen points: both inputs are at row block t,
    the output at row block t / 8, and the point's coordinates (i₀, i₁) satisfy 8·i₀ + i₁ = t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 8 ∧ win0_2.index t (1 : Fin 2) = 0
    ∧ 8 * (grid0.coords t 0).val + (grid0.coords t 1).val = t.val :=
  (by decide +kernel : ∀ t : Fin grid0.N, _)

/-- Entry (r, k) of a point's block is entry (4096·t + r, k) of the array. -/
theorem blkA_apply (c : Dev nD) (t : Fin cfg0.N) (r : Fin 4096) (k : Fin 256) (h : 4096 * t.val + r.val < 65536) :
    blkA m c t (ix2 r k) = arrA m c (ix2 ⟨4096 * t.val + r.val, h⟩ k) := by
  obtain ⟨e0, e1, -⟩ := idx_facts t
  show ((cfg0.win 0).blk t).view.read (Elt Ideal) (V m c (Pipeline.arrRef spec0 0)) (ix2 r k) = _
  rw [View.read_apply]
  show V m c main_arg0 (((cfg0.win 0).blk t).view.emb (ix2 r k)) = V m c main_arg0 _
  congr 1
  funext a
  apply Fin.ext
  match a with
  | ⟨0, _⟩ => show win0_0.index t (0 : Fin 2) * 4096 + 1 * r.val = 4096 * t.val + r.val; omega
  | ⟨1, _⟩ => show win0_0.index t (1 : Fin 2) * 256 + 1 * k.val = k.val; omega

theorem blkB_apply (c : Dev nD) (t : Fin cfg0.N) (r : Fin 4096) (k : Fin 256) (h : 4096 * t.val + r.val < 65536) :
    blkB m c t (ix2 r k) = arrB m c (ix2 ⟨4096 * t.val + r.val, h⟩ k) := by
  obtain ⟨-, -, e0, e1, -⟩ := idx_facts t
  show ((cfg0.win 1).blk t).view.read (Elt Ideal) (V m c (Pipeline.arrRef spec0 1)) (ix2 r k) = _
  rw [View.read_apply]
  show V m c main_arg1 (((cfg0.win 1).blk t).view.emb (ix2 r k)) = V m c main_arg1 _
  congr 1
  funext a
  apply Fin.ext
  match a with
  | ⟨0, _⟩ => show win0_1.index t (0 : Fin 2) * 4096 + 1 * r.val = 4096 * t.val + r.val; omega
  | ⟨1, _⟩ => show win0_1.index t (1 : Fin 2) * 256 + 1 * k.val = k.val; omega

/-- Row n's contribution, from the arrays (zero past the last row, which no tile reaches). -/
def rowC (c : Dev nD) (n : ℕ) : EReal :=
  if h : n < 65536 then rowTerm n (∑ k : Fin 256, arrA m c (ix2 ⟨n, h⟩ k) * arrB m c (ix2 ⟨n, h⟩ k)) else 0

/-- The sum of tile t's 4096 contributions. -/
def tileSum (c : Dev nD) (t : ℕ) : EReal := ∑ r : Fin 4096, rowC m c (4096 * t + r.val)

theorem tile_eq (c : Dev nD) (t : Fin cfg0.N) :
    (∑ r : Fin 4096, rowTerm (grow (grid0.coords t) r) (∑ k : Fin 256, blkA m c t (ix2 r k) * blkB m c t (ix2 r k)))
      = tileSum m c t.val := by
  have hN : t.val < 16 := lt_of_lt_of_eq t.isLt (show cfg0.N = 16 from N_0)
  obtain ⟨-, -, -, -, -, -, eg⟩ := idx_facts t
  unfold tileSum
  refine Finset.sum_congr rfl fun r _ => ?_
  have hr := r.isLt
  have hlt : 4096 * t.val + r.val < 65536 := by omega
  have hg : grow (grid0.coords t) r = 4096 * t.val + r.val := by unfold grow; rw [eg]
  unfold rowC
  rw [dif_pos hlt, hg]
  congr 1
  refine Finset.sum_congr rfl fun k _ => ?_
  rw [blkA_apply m c t r k hlt, blkB_apply m c t r k hlt]

/-- The first point of a half leaves the accumulator at 0 + the tile's sum. -/
theorem step_first (c : Dev nD) (t : Fin cfg0.N) (hc0 : cond0_0 (grid0.coords t)) (hc1 : ¬cond0_1 (grid0.coords t))
    (y : S1x1.Idx) :
    sout0_A_0 (F := Ideal) c (grid0.coords t) (ms0_0 t) (hs0_0 t) (ms0_1 t) (hs0_1 t) (ms0_2 t) (hs0_2 t) scM0_0
        (Memref.isWhole_whole _) hc0 hc1 (blkA m c t) (blkB m c t) y
      = 0 + tileSum m c t.val := by
  refine (congrFun (Pieces.acc_first (F := Ideal) c (grid0.coords t) (ms0_0 t) (hs0_0 t) (ms0_1 t) (hs0_1 t) (ms0_2 t)
    (hs0_2 t) scM0_0 (Memref.isWhole_whole _) hc0 hc1 (blkA m c t) (blkB m c t)) y).trans ?_
  rw [pay2_apply, pay1_apply, tile_eq]

/-- A middle point adds the tile's sum to what it found. -/
theorem step_mid (c : Dev nD) (t : Fin cfg0.N) (hc0 : ¬cond0_0 (grid0.coords t)) (hc1 : ¬cond0_1 (grid0.coords t))
    (xs : Vec Ideal S1x1 .f32) (y : S1x1.Idx) :
    sout0_B_0 (F := Ideal) c (grid0.coords t) (ms0_0 t) (hs0_0 t) (ms0_1 t) (hs0_1 t) (ms0_2 t) (hs0_2 t) scM0_0
        (Memref.isWhole_whole _) hc0 hc1 (blkA m c t) (blkB m c t) xs y
      = xs y + tileSum m c t.val := by
  refine (congrFun (Pieces.acc_middle (F := Ideal) c (grid0.coords t) (ms0_0 t) (hs0_0 t) (ms0_1 t) (hs0_1 t) (ms0_2 t)
    (hs0_2 t) scM0_0 (Memref.isWhole_whole _) hc0 hc1 (blkA m c t) (blkB m c t) xs) y).trans ?_
  rw [pay2_apply, tile_eq]

/-- So does the last point of a half … -/
theorem step_last (c : Dev nD) (t : Fin cfg0.N) (hc0 : ¬cond0_0 (grid0.coords t)) (hc1 : cond0_1 (grid0.coords t))
    (xs : Vec Ideal S1x1 .f32) (y : S1x1.Idx) :
    sout0_C_0 (F := Ideal) c (grid0.coords t) (ms0_0 t) (hs0_0 t) (ms0_1 t) (hs0_1 t) (ms0_2 t) (hs0_2 t) scM0_0
        (Memref.isWhole_whole _) hc0 hc1 (blkA m c t) (blkB m c t) xs y
      = xs y + tileSum m c t.val := by
  refine (congrFun (Pieces.acc_last (F := Ideal) c (grid0.coords t) (ms0_0 t) (hs0_0 t) (ms0_1 t) (hs0_1 t) (ms0_2 t)
    (hs0_2 t) scM0_0 (Memref.isWhole_whole _) hc0 hc1 (blkA m c t) (blkB m c t) xs) y).trans ?_
  rw [pay2_apply, tile_eq]

/-- … which also fills the output block with that new value. -/
theorem block_last (c : Dev nD) (t : Fin cfg0.N) (hc0 : ¬cond0_0 (grid0.coords t)) (hc1 : cond0_1 (grid0.coords t))
    (xs : Vec Ideal S1x1 .f32) (y : S8x128.Idx) :
    out0_C_2 (F := Ideal) c (grid0.coords t) (ms0_0 t) (hs0_0 t) (ms0_1 t) (hs0_1 t) (ms0_2 t) (hs0_2 t) scM0_0
        (Memref.isWhole_whole _) hc0 hc1 (blkA m c t) (blkB m c t) xs y
      = xs (ix2 0 0) + tileSum m c t.val := by
  refine (congrFun (Pieces.out_last (F := Ideal) c (grid0.coords t) (ms0_0 t) (hs0_0 t) (ms0_1 t) (hs0_1 t) (ms0_2 t)
    (hs0_2 t) scM0_0 (Memref.isWhole_whole _) hc0 hc1 (blkA m c t) (blkB m c t) xs) y).trans ?_
  rw [pay3_apply, pay2_apply, tile_eq]

/-- The accumulator after point n is the running sum of its half's tile sums. -/
theorem scratch_eq (c : Dev nD) : ∀ (n : ℕ) (h : n < cfg0.N) (y : S1x1.Idx),
    (outsAt0 m c n h).2 y = acc (tileSum m c) n
  | 0, h, y => by
    rw [outsAt0_A m c ⟨0, h⟩ rfl (show ¬(0 : ℕ) % 8 = 7 by decide)]
    dsimp only
    rw [RowSum.acc_first _ 0 rfl]
    exact step_first m c ⟨0, h⟩ _ _ y
  | n + 1, h, y => by
    have hN : cfg0.N = 16 := N_0
    by_cases h0 : (n + 1) % 8 = 0
    · have h1 : ¬(n + 1) % 8 = 7 := by omega
      rw [outsAt0_A m c ⟨n + 1, h⟩ h0 h1]
      dsimp only
      rw [RowSum.acc_first _ (n + 1) h0]
      exact step_first m c ⟨n + 1, h⟩ _ _ y
    · by_cases h1 : (n + 1) % 8 = 7
      · rw [outsAt0_C m c ⟨n + 1, h⟩ h0 h1]
        dsimp only
        rw [acc_next _ n h0]
        refine (step_last m c ⟨n + 1, h⟩ _ _ (outsAt0 m c n (Nat.lt_of_succ_lt h)).2 y).trans ?_
        rw [scratch_eq c n (Nat.lt_of_succ_lt h) y]
      · rw [outsAt0_B m c ⟨n + 1, h⟩ h0 h1]
        dsimp only
        rw [acc_next _ n h0]
        refine (step_mid m c ⟨n + 1, h⟩ _ _ (outsAt0 m c n (Nat.lt_of_succ_lt h)).2 y).trans ?_
        rw [scratch_eq c n (Nat.lt_of_succ_lt h) y]

/-- At the last point of a half, every entry of the output block is that half's running sum. -/
theorem out_eq (c : Dev nD) (t : Fin cfg0.N) (h1 : t.val % 8 = 7) (y : S8x128.Idx) :
    (outsAt0 m c t.val t.isLt).1 y = acc (tileSum m c) t.val := by
  have h0 : ¬t.val % 8 = 0 := by omega
  have hpos : t.val - 1 + 1 = t.val := by omega
  rw [outsAt0_C m c t h0 h1]
  dsimp only
  refine (block_last m c t _ _ (outsAt0 m c (t.val - 1) (Nat.lt_of_le_of_lt (Nat.sub_le _ _) t.isLt)).2 y).trans ?_
  rw [scratch_eq m c (t.val - 1) _ (ix2 0 0)]
  have hn := acc_next (tileSum m c) (t.val - 1) (by rw [hpos]; exact h0)
  rw [hpos] at hn
  exact hn.symm

/-- The result array after the region: rows 0–7 hold the first half's sum, rows 8–15 the second's. -/
def halves (c : Dev nD) : Vec Ideal S16x128 .f32 := fun j => acc (tileSum m c) (8 * ((j 0).val / 8) + 7)

/-- What a write-back point writes is its block of that array. -/
theorem flushed_eq (c : Dev nD) (t : Fin cfg0.N) (hf : (cfg0.win 2).flush t = true) :
    (dats m 0 c).flushed 2 t = ((cfg0.win 2).blk t).view.read (Elt Ideal) (halves m c) := by
  have h7 : t.val % 8 = 7 := (flush0_2 t).mp hf
  obtain ⟨-, -, -, -, e4, -, -⟩ := idx_facts t
  show (cfg0.win 2).cut (grid0.coords t) ((dats m 0 c).after 2 t) = _
  rw [after0_2]
  funext y
  rw [View.read_apply]
  show (outsAt0 m c t.val t.isLt).1 y = halves m c (((cfg0.win 2).blk t).view.emb y)
  rw [out_eq m c t h7 y]
  unfold halves
  have e : ((((cfg0.win 2).blk t).view.emb y) 0).val = win0_2.index t (0 : Fin 2) * 8 + 1 * (y 0).val := rfl
  have hy : (y 0).val < 8 := (y 0).isLt
  rw [e, e4]
  congr 1
  omega

/-- The two write-back blocks tile the [16,128] array, so it ends at `halves`. -/
theorem final (c : Dev nD) : (dats m 0 c).arrAt 2 cfg0.N = halves m c :=
  (dats m 0 c).arrAt_eq_of_cover 2 (halves m c) (flushed_eq m c) fun i => by
    have hi0 : (i 0).val < 16 := (i 0).isLt
    have hi1 : (i 1).val < 128 := (i 1).isLt
    have hN : cfg0.N = 16 := N_0
    have ht : 8 * ((i 0).val / 8) + 7 < cfg0.N := by omega
    obtain ⟨-, -, -, -, e4, e5, -⟩ := idx_facts ⟨8 * ((i 0).val / 8) + 7, ht⟩
    refine ⟨⟨8 * ((i 0).val / 8) + 7, ht⟩, (flush0_2 _).mpr (by show (8 * ((i 0).val / 8) + 7) % 8 = 7; omega), ?_⟩
    show i ∈ ((View.whole main_v0).slice (win0_2.rect ⟨8 * ((i 0).val / 8) + 7, ht⟩)).set
    rw [View.set_slice_whole, Rect.mem_set_unit]
    intro a
    match a with
    | ⟨0, _⟩ =>
      show win0_2.index ⟨8 * ((i 0).val / 8) + 7, ht⟩ (0 : Fin 2) * 8 ≤ (i 0).val
        ∧ (i 0).val < win0_2.index ⟨8 * ((i 0).val / 8) + 7, ht⟩ (0 : Fin 2) * 8 + 8
      rw [e4]; show (8 * ((i 0).val / 8) + 7) / 8 * 8 ≤ (i 0).val ∧ (i 0).val < (8 * ((i 0).val / 8) + 7) / 8 * 8 + 8; omega
    | ⟨1, _⟩ =>
      show win0_2.index ⟨8 * ((i 0).val / 8) + 7, ht⟩ (1 : Fin 2) * 128 ≤ (i 1).val
        ∧ (i 1).val < win0_2.index ⟨8 * ((i 0).val / 8) + 7, ht⟩ (1 : Fin 2) * 128 + 128
      rw [e5]; omega

/-- The region's result array as the host operations after it find it. -/
theorem tail_array (c : Dev nD) :
    Pipeline.withArrays (cfgs 0).spec c (V0 m c) (fun w => (dats m 0 c).arrAt w (cfgs 0).N) (Proc.tc.devRef main_v0)
      = halves m c :=
  (Pipeline.withArrays_arr spec0 launch0.win.arr_inj c _ _ 2).trans (final m c)

/-- One entry (p, 0) of a [16,128] array, sliced out as [1,1] and reshaped to a scalar. -/
theorem entry_apply (X : Vec Ideal S16x128 .f32) (p : Fin 16) (off : Fin 2 → ℕ) (hoff : off = ![p.val, 0])
    (hs : S16x128.Slices off S1x1) (i : S_.Idx) :
    shapeCast S_ (extractStridedSlice S1x1 off X hs) shapeCasts_S1x1_S_ i = X (ix2 p 0) := by
  subst hoff
  refine (shapeCast_apply _ shapeCasts_S1x1_S_ i (ix2 0 0) ?_).trans ?_
  · have h : (S_.rowMajor i).val < 1 := lt_of_lt_of_eq (S_.rowMajor i).isLt (by decide)
    rw [Shape.rowMajor_val_two]
    show (0 : ℕ) * _ + 0 = (S_.rowMajor i).val
    omega
  refine extractStridedSlice_apply _ X hs (ix2 0 0) (ix2 p 0) (fun a => ?_)
  match a with
  | ⟨0, _⟩ => rfl
  | ⟨1, _⟩ => rfl

/-- The program's result: the two halves' sums added. -/
theorem result_eq (c : Dev nD) :
    Pipeline.afterTail₀ cfgs (dats m) 0 (V0 m) [hostOps1] c main_v5
      = fun _ => halves m c (ix2 0 0) + halves m c (ix2 8 0) := by
  unfold Pipeline.afterTail₀
  show StableHlo.after hostOps1 _ (Proc.devRef .tc main_v5) = _
  after_results
  rw [tail_array]
  funext i
  show shapeCast S_ (extractStridedSlice S1x1 ![0, 0] (halves m c) slices_S16x128_S1x1_0_0) shapeCasts_S1x1_S_ i
      + shapeCast S_ (extractStridedSlice S1x1 ![8, 0] (halves m c) slices_S16x128_S1x1_8_0) shapeCasts_S1x1_S_ i = _
  rw [entry_apply (halves m c) 0 ![0, 0] rfl, entry_apply (halves m c) 8 ![8, 0] rfl]

/-- The two halves together are the sum over all 65536 rows. -/
theorem halves_total (c : Dev nD) :
    halves m c (ix2 0 0) + halves m c (ix2 8 0) = RowSum.total (arrA m c) (arrB m c) := by
  have e0 : halves m c (ix2 0 0) = acc (tileSum m c) 7 := rfl
  have e1 : halves m c (ix2 8 0) = acc (tileSum m c) 15 := rfl
  rw [e0, e1, acc_7, acc_15]
  unfold tileSum RowSum.total
  rw [sum_tiles (rowC m c)]
  refine Finset.sum_congr rfl fun n _ => ?_
  unfold rowC RowSum.dot
  rw [dif_pos n.isLt]

/-- The run, read: the program's scalar result is the total of the argument arrays, which it leaves unchanged. -/
theorem run : θ_run defs (onTc (τ := τ) (main (F := Ideal))) ⟨m, fun _ => 0, ρ⟩ fun r => ∀ c : Dev nD,
      r.2.mem ((c : Thread nD τ).loc main_v5)
        = (fun _ => RowSum.total (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (by decide)).trans ((result_eq m c).trans (funext fun _ => halves_total m c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.HalfSums

end
-- ==== Proof.RefValue.lean ====
/-
  The reference's result, read as one sum over the rows.

  The reference builds a weight vector that is 65534 everywhere except 65535 at the last index (a scatter of ONE scalar
  update at the one index 65535, which is inside the 65536 entries, so it lands), subtracts 1, multiplies by the row
  inner products, adds their exponentials and sums.  Entry by entry that is weight(n)·d_n + exp d_n, which is the
  row contribution in its other spelling.
-/
import proofs.«119670_j86526411145838_2_alg».proof.Proof.Gen.ReferenceIdeal.Read
import proofs.«119670_j86526411145838_2_alg».proof.Proof.RowSum
import Idealize.ShloMosaic.Lib.ValueIdx
import Idealize.ShloMosaic.PureOps.Ideal.Laws

noncomputable section

open Idealize.ShloMosaic Idealize.ShloMosaic.ValueIdx

namespace Cert.ReferenceIdeal.Weights

open Cert.ReferenceIdeal Cert.ReferenceIdeal.Gen Cert.ReferenceIdeal.Read Cert.RowSum

/-- The scatter's one start index is the word 65535, read signed: 65535. -/
theorem start_eq (j : S_.Idx) (a : Fin S65536.rank) :
    scatter_S65536_S1_S__n_0_0_0.start j (val_main_v3 (F := Ideal)) a = 65535 := by
  have ha0 : a = 0 := Subsingleton.elim _ _
  subst ha0
  unfold ScatterDims.start
  rw [dif_pos (by decide)]
  rw [val_main_v3_apply, val_main_c_apply]
  rfl

/-- The update is a scalar: it has no window coordinate. -/
theorem window_eq (j : S_.Idx) (a : Fin S65536.rank) : scatter_S65536_S1_S__n_0_0_0.window j a = 0 := by
  have ha0 : a = 0 := Subsingleton.elim _ _
  subst ha0
  unfold ScatterDims.window
  rw [dif_neg (by decide)]

/-- So the update lands at index 65535. -/
theorem lands (j : S_.Idx) :
    scatter_S65536_S1_S__n_0_0_0.resultIdx? j (val_main_v3 (F := Ideal)) = some (ix1 (⟨65535, by norm_num⟩ : Fin 65536)) := by
  unfold ScatterDims.resultIdx?
  have h : ∀ a, 0 ≤ scatter_S65536_S1_S__n_0_0_0.start j (val_main_v3 (F := Ideal)) a + scatter_S65536_S1_S__n_0_0_0.window j a
      ∧ scatter_S65536_S1_S__n_0_0_0.start j (val_main_v3 (F := Ideal)) a + scatter_S65536_S1_S__n_0_0_0.window j a < S65536.size a := fun a => by
    rw [start_eq, window_eq]
    have ha0 : a = 0 := Subsingleton.elim _ _
    subst ha0
    constructor
    · norm_num
    · show (65535 : ℤ) + ((0 : ℕ) : ℤ) < ((65536 : ℕ) : ℤ); norm_num
  rw [dif_pos h]
  congr 1
  funext a
  apply Fin.ext
  have ha0 : a = 0 := Subsingleton.elim _ _
  subst ha0
  show (scatter_S65536_S1_S__n_0_0_0.start j (val_main_v3 (F := Ideal)) 0 + scatter_S65536_S1_S__n_0_0_0.window j 0).toNat = 65535
  rw [start_eq, window_eq]; rfl

/-- The weight vector: 65535 at the last index, 65534 elsewhere. -/
theorem counts_apply (n : Fin 65536) :
    val_main_v4 (F := Ideal) (ix1 n)
      = if n.val = 65535 then Ideal.ofBits .f32 0x477FFF00#32 else Ideal.ofBits .f32 0x477FFE00#32 := by
  unfold val_main_v4 Host.scatter
  have hn : List.finRange S_.numel = [⟨0, by decide⟩] := by decide
  rw [hn]
  simp only [List.foldl_cons, List.foldl_nil]
  rw [lands]
  dsimp only
  by_cases h : n.val = 65535
  · have e : ix1 n = ix1 (⟨65535, by norm_num⟩ : Fin 65536) := by rw [show n = ⟨65535, by norm_num⟩ from Fin.ext h]
    rw [if_pos h, if_pos e]; rfl
  · have e : ¬ix1 n = ix1 (⟨65535, by norm_num⟩ : Fin 65536) := fun e => h (congrArg Fin.val (congrFun e 0))
    rw [if_neg h, if_neg e, val_main_v2_apply]; rfl

theorem dots_apply (x0 x1 : (⟨S65536x256, .f32⟩ : BufTy).Contents (Elt Ideal)) (n : Fin 65536) :
    val_main_v1 (F := Ideal) x0 x1 (ix1 n) = dot x0 x1 n := by
  rw [val_main_v1_apply]
  show Ideal.ofBits .f32 0x00000000#32 + _ = _
  rw [Ideal.ofBits_zero_f32, zero_add]
  refine Finset.sum_congr rfl fun k _ => ?_
  have e : idx_main_v1 (ix1 n) k = ix2 n k := funext fun a => Fin.ext (by match a with | ⟨0, _⟩ => rfl | ⟨1, _⟩ => rfl)
  rw [e]; rfl

/-- A rank-1 index is its one coordinate, so a sum over the indices is the sum over the coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) :=
  (Equiv.sum_comp idxEquiv1.symm f).symm

/-- The reference's result is the sum over the rows of each row's contribution. -/
theorem total (x0 x1 : (⟨S65536x256, .f32⟩ : BufTy).Contents (Elt Ideal)) (i : S_.Idx) :
    val_main_v10 (F := Ideal) x0 x1 i = RowSum.total x0 x1 := by
  unfold RowSum.total
  rw [val_main_v10_apply]
  show Ideal.ofBits .f32 0x00000000#32 + _ = _
  rw [Ideal.ofBits_zero_f32, zero_add, sum_idx1]
  refine Finset.sum_congr rfl fun n _ => ?_
  rw [rowTerm_eq, val_main_v9_apply, val_main_v7_apply, val_main_v8_apply, val_main_v6_apply, counts_apply,
    val_main_v5_apply, val_main_cst_2_apply, dots_apply]
  show (_ - Ideal.ofBits .f32 0x3F800000#32) * _ + Ideal.exp _ = _
  unfold weight
  rw [ofBits_one]
  by_cases h : n.val = 65535
  · rw [if_pos h, if_pos h, ofBits_65535]
  · rw [if_neg h, if_neg h, ofBits_65534]

end Cert.ReferenceIdeal.Weights

end
-- ==== Proof.lean ====
/-
  A contrastive-loss reduction: for two [65536, 256] arrays a and b, with row inner products
  d_j = Σ_k a(j,k)·b(j,k), the result is the scalar Σ_j w_j·d_j + exp d_j, where the weight is 65533 on every row
  but the last and 65534 on the last.

  The reference spells it directly: a weight vector 65534 with 65535 scattered at the last index, minus 1, times d,
  plus exp d, summed over the 65536 rows.  The kernel streams 16 tiles of 4096 rows over a 2 × 8 grid, adds
  65533·d + exp d per row and one more d on global row 65535, sums each tile, accumulates the 8 tile sums of each
  half in a carried [1,1] scratch, writes each half's sum over an [8,128] block of a [16,128] array, and the host adds
  entries (0,0) and (8,0).

  Over the extended reals the two agree with no assumption on the inputs: row by row the contributions are equal
  ((65533·d + e) + d = 65534·d + e holds at ±∞ as well as at a real d), and the rest is a regrouping of a finite sum.
  The kernel's frame and the reference's run are generated; what is proved here is the value of the kernel's run
  (Proof/Pieces, Proof/Payload, Proof/HalfSums), the value of the reference's (Proof/RefValue), and the arithmetic
  that joins them (Proof/RowSum).  The idealization rewrote nothing, so the preservation claim is trivial.
-/
import proofs.«119670_j86526411145838_2_alg».proof.Defs
import proofs.«119670_j86526411145838_2_alg».proof.Proof.Gen.Kernel
import proofs.«119670_j86526411145838_2_alg».proof.Proof.Gen.Kernel.Skeleton
import proofs.«119670_j86526411145838_2_alg».proof.Proof.Gen.Kernel.Launch
import proofs.«119670_j86526411145838_2_alg».proof.Proof.Gen.Kernel.Points
import proofs.«119670_j86526411145838_2_alg».proof.Proof.Gen.Kernel.Frame
import proofs.«119670_j86526411145838_2_alg».proof.Proof.Gen.KernelIdeal
import proofs.«119670_j86526411145838_2_alg».proof.Proof.Gen.KernelIdeal.Skeleton
import proofs.«119670_j86526411145838_2_alg».proof.Proof.Gen.KernelIdeal.Launch
import proofs.«119670_j86526411145838_2_alg».proof.Proof.Gen.KernelIdeal.Points
import proofs.«119670_j86526411145838_2_alg».proof.Proof.Gen.KernelIdeal.Frame
import proofs.«119670_j86526411145838_2_alg».proof.Proof.Gen.ReferenceIdeal
import proofs.«119670_j86526411145838_2_alg».proof.Proof.Gen.ReferenceIdeal.Run
import proofs.«119670_j86526411145838_2_alg».proof.Proof.Gen.ReferenceIdeal.Read
import proofs.«119670_j86526411145838_2_alg».proof.Proof.Gen.Pre_finite_inputs
import proofs.«119670_j86526411145838_2_alg».proof.Proof.HalfSums
import proofs.«119670_j86526411145838_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its generated run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the total of the argument arrays: the kernel by its halves' sums, the reference by its one
    sum over the rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => Cert.RowSum.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HalfSums.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]
  funext i
  exact Cert.ReferenceIdeal.Weights.total _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
